-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x10 : Shape := ⟨2, ![256, 10]⟩
abbrev S10 : Shape := ⟨1, ![10]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S256x10 1) : IVec S_ 1 :=
  let main_c_5 : IVec S_ 1 := constantI S_ 1 1#1
  let main_v17 : IVec S_ 1 := (fun x v => Host.reduce IntOp.andi x v reducesTo_S256x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x10 .f32) (main_arg3 : FVec F S10 .f32) (main_arg4 : FVec F S256x10 .f32) (main_arg5 : FVec F S10 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x10 .f32 := Host.absf main_arg2
  let main_cst_0 : FVec F S_ .f32 := constant S_ .f32 0x7F800000#32
  let main_v5 : FVec F S256x10 .f32 := broadcastInDim S256x10 ![] bcast_S_S256x10 main_cst_0
  let main_v6 : IVec S256x10 1 := cmpf .olt main_v4 main_v5
  let main_c_1 : IVec S_ 1 := constantI S_ 1 1#1
  let main_v7 : IVec S_ 1 := (fun x v => Host.reduce IntOp.andi x v reducesTo_S256x10_S_d0_1 h_S_) main_v6 main_c_1
  let main_v8 : IVec S_ 1 := andi main_v3 main_v7
  let main_v9 : FVec F S10 .f32 := Host.absf main_arg3
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S256x10 .f32 := Host.absf main_arg4
  let main_cst_4 : FVec F S_ .f32 := constant S_ .f32 0x7F800000#32
  let main_v15 : FVec F S256x10 .f32 := broadcastInDim S256x10 ![] bcast_S_S256x10 main_cst_4
  let main_v16 : IVec S256x10 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x10 : Shape := ⟨2, ![256, 10]⟩
abbrev S10 : Shape := ⟨1, ![10]⟩
abbrev S256x20 : Shape := ⟨2, ![256, 20]⟩
abbrev S100000x20 : Shape := ⟨2, ![100000, 20]⟩
abbrev S4096x256 : Shape := ⟨2, ![4096, 256]⟩
abbrev S4096x20 : Shape := ⟨2, ![4096, 20]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x20 : Shape := ⟨2, ![3300000, 20]⟩
abbrev S100000x10 : Shape := ⟨2, ![100000, 10]⟩
abbrev S1x10 : Shape := ⟨2, ![1, 10]⟩

abbrev nBuf : Space → Nat
  | .hbm => 68
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x10, .f32⟩
  | .hbm, ⟨3, _⟩ => ⟨S10, .f32⟩
  | .hbm, ⟨4, _⟩ => ⟨S256x10, .f32⟩
  | .hbm, ⟨5, _⟩ => ⟨S10, .f32⟩
  | .hbm, ⟨6, _⟩ => ⟨S256x20, .f32⟩
  | .hbm, ⟨7, _⟩ => ⟨S100000x20, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x20, .f32⟩
  | .hbm, ⟨53, _⟩ => ⟨S3300000x1, .f32⟩
  | .hbm, ⟨54, _⟩ => ⟨S3300000x20, .f32⟩
  | .hbm, ⟨55, _⟩ => ⟨S3300000x20, .f32⟩
  | .hbm, ⟨56, _⟩ => ⟨S_, .f32⟩
  | .hbm, ⟨57, _⟩ => ⟨S100000x20, .f32⟩
  | .hbm, ⟨58, _⟩ => ⟨S3300000x1, .i32⟩
  | .hbm, ⟨59, _⟩ => ⟨S100000x20, .f32⟩
  | .hbm, ⟨60, _⟩ => ⟨S100000x10, .f32⟩
  | .hbm, ⟨61, _⟩ => ⟨S1x10, .f32⟩
  | .hbm, ⟨62, _⟩ => ⟨S100000x10, .f32⟩
  | .hbm, ⟨63, _⟩ => ⟨S100000x10, .f32⟩
  | .hbm, ⟨64, _⟩ => ⟨S100000x10, .f32⟩
  | .hbm, ⟨65, _⟩ => ⟨S1x10, .f32⟩
  | .hbm, ⟨66, _⟩ => ⟨S100000x10, .f32⟩
  | .hbm, ⟨67, _⟩ => ⟨S100000x10, .f32⟩
  | .local _ .vmem, ⟨0, _⟩ => ⟨S4096x256, .f32⟩
  | .local _ .vmem, ⟨1, _⟩ => ⟨S4096x256, .f32⟩
  | .local _ .vmem, ⟨2, _⟩ => ⟨S256x20, .f32⟩
  | .local _ .vmem, ⟨3, _⟩ => ⟨S4096x20, .f32⟩
  | .local _ .vmem, ⟨4, _⟩ => ⟨S4096x20, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S256x10_S256x10_S256x20_d1 : Shape.Concatenates [S256x10, S256x10] S256x20 1
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x20_S256x20_0_0 : ∀ a, (![0, 0] : Fin 2 → Nat) a + S256x20.size a ≤ S256x20.size a
  h_S256x20 : 0 < S256x20.numel
  shapeCasts_S256x20_S256x20 : S256x20.ShapeCasts S256x20
  inb_S4096x20_S4096x20_0_0 : ∀ a, (![0, 0] : Fin 2 → Nat) a + S4096x20.size a ≤ S4096x20.size a
  h_S4096x20 : 0 < S4096x20.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x20_0_1 : S3300000x1.BroadcastsInDim S3300000x20 (![0, 1] : Fin 2 → Fin S3300000x20.rank)
  bcast_S_S100000x20 : S_.BroadcastsInDim S100000x20 (![] : Fin 0 → Fin S100000x20.rank)
  slices_S100000x20_S100000x10_0_0 : S100000x20.Slices ![0, 0] S100000x10
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  slices_S100000x20_S100000x10_0_10 : S100000x20.Slices ![0, 10] S100000x10
  dot_S4096x256_S256x20_S4096x20_1_0_0_1_n_n_wf : DotDims.WF S4096x256 S256x20 S4096x20 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x20_S3300000x1_S3300000x20_1_0_n_n_0_1_120_wf : GatherDims.WF S100000x20 S3300000x1 S3300000x20 [1] [0] [] [0] [] 1 ![1, 20]
  scatter_S100000x20_S3300000x1_S3300000x20_1_0_0_1_wf : ScatterDims.WF S100000x20 S3300000x1 S3300000x20 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x256.size a < S100000x256.size a
  hwx0_0 : ∀ i : grid0.Coords, EltTy.bits .f32 = 32 ∨ (Rect.unit (s := S100000x256) (fun a => cc0_transform_0 i a * S4096x256.size a) (fun a => (Pipeline.Clip.of (cc0_transform_0 i a) (S4096x256.size a) (S100000x256.size a)).extent (S4096x256.size a)) fun a => Pipeline.Clip.inb (Pipeline.Clip.ok_of (hstart0_0 i a))).WholeWords (EltTy.packing .f32)
  hwxs0_0 : ∀ i : grid0.Coords, EltTy.bits .f32 = 32 ∨ (Rect.unit (s := S4096x256) (fun _ => 0) (fun a => (Pipeline.Clip.of (cc0_transform_0 i a) (S4096x256.size a) (S100000x256.size a)).extent (S4096x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x20.size a ≤ S256x20.size a
  hwx0_1 : ∀ i : grid0.Coords, EltTy.bits .f32 = 32 ∨ (Rect.block (s := S256x20) S256x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x20.size a < S100000x20.size a
  hwx0_2 : ∀ i : grid0.Coords, EltTy.bits .f32 = 32 ∨ (Rect.unit (s := S100000x20) (fun a => cc0_transform_2 i a * S4096x20.size a) (fun a => (Pipeline.Clip.of (cc0_transform_2 i a) (S4096x20.size a) (S100000x20.size a)).extent (S4096x20.size a)) fun a => Pipeline.Clip.inb (Pipeline.Clip.ok_of (hstart0_2 i a))).WholeWords (EltTy.packing .f32)
  hwxs0_2 : ∀ i : grid0.Coords, EltTy.bits .f32 = 32 ∨ (Rect.unit (s := S4096x20) (fun _ => 0) (fun a => (Pipeline.Clip.of (cc0_transform_2 i a) (S4096x20.size a) (S100000x20.size a)).extent (S4096x20.size a)) fun a => (Nat.zero_add _).trans_le (Pipeline.Clip.extent_le (Pipeline.Clip.ok_of (hstart0_2 i a)))).WholeWords (EltTy.packing .f32)

variable [Facts₀]

def dot_S4096x256_S256x20_S4096x20_1_0_0_1_n_n : DotDims S4096x256 S256x20 S4096x20 where
  lhsContracting := [1]
  rhsContracting := [0]
  lhsNonContracting := [0]
  rhsNonContracting := [1]
  lhsBatch := []
  rhsBatch := []
  wf := dot_S4096x256_S256x20_S4096x20_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x20_S3300000x1_S3300000x20_1_0_n_n_0_1_120 : GatherDims S100000x20 S3300000x1 S3300000x20 where
  offsetDims := [1]
  collapsedSliceDims := [0]
  operandBatchingDims := []
  startIndicesBatchingDims := []
  startIndexMap := [0]
  indexVectorDim := 1
  sliceSizes := ![1, 20]
  wf := gather_S100000x20_S3300000x1_S3300000x20_1_0_n_n_0_1_120_wf
def scatter_S100000x20_S3300000x1_S3300000x20_1_0_0_1 : ScatterDims S100000x20 S3300000x1 S3300000x20 where
  updateWindowDims := [1]
  insertedWindowDims := [0]
  scatterDimsToOperandDims := [0]
  indexVectorDim := 1
  wf := scatter_S100000x20_S3300000x1_S3300000x20_1_0_0_1_wf

abbrev win0_0 : Pipeline.Window sig grid0 :=
  Pipeline.Window.ofSpecClip (Memref.whole main_arg0) S4096x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S256x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v1) S4096x20.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x10 : Shape := ⟨2, ![256, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x10 : Shape := ⟨2, ![100000, 10]⟩
abbrev S3300000x10 : Shape := ⟨2, ![3300000, 10]⟩
abbrev S1x10 : Shape := ⟨2, ![1, 10]⟩

abbrev nBuf : Space → Nat
  | .hbm => 82
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x10, .f32⟩
  | .hbm, ⟨3, _⟩ => ⟨S10, .f32⟩
  | .hbm, ⟨4, _⟩ => ⟨S256x10, .f32⟩
  | .hbm, ⟨5, _⟩ => ⟨S10, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3300000, .i32⟩
  | .hbm, ⟨25, _⟩ => ⟨S3300000, .i1⟩
  | .hbm, ⟨26, _⟩ => ⟨S_, .i32⟩
  | .hbm, ⟨27, _⟩ => ⟨S3300000, .i32⟩
  | .hbm, ⟨28, _⟩ => ⟨S3300000, .i32⟩
  | .hbm, ⟨29, _⟩ => ⟨S3300000, .i32⟩
  | .hbm, ⟨30, _⟩ => ⟨S3300000x1, .i32⟩
  | .hbm, ⟨31, _⟩ => ⟨S3300000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S3300000, .f32⟩
  | .hbm, ⟨42, _⟩ => ⟨S100000x10, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000x10, .f32⟩
  | .hbm, ⟨52, _⟩ => ⟨S3300000x1, .f32⟩
  | .hbm, ⟨53, _⟩ => ⟨S3300000x10, .f32⟩
  | .hbm, ⟨54, _⟩ => ⟨S3300000x10, .f32⟩
  | .hbm, ⟨55, _⟩ => ⟨S_, .f32⟩
  | .hbm, ⟨56, _⟩ => ⟨S100000x10, .f32⟩
  | .hbm, ⟨57, _⟩ => ⟨S3300000x1, .i32⟩
  | .hbm, ⟨58, _⟩ => ⟨S100000x10, .f32⟩
  | .hbm, ⟨59, _⟩ => ⟨S1x10, .f32⟩
  | .hbm, ⟨60, _⟩ => ⟨S100000x10, .f32⟩
  | .hbm, ⟨61, _⟩ => ⟨S100000x10, .f32⟩
  | .hbm, ⟨62, _⟩ => ⟨S100000x10, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x10, .f32⟩
  | .hbm, ⟨72, _⟩ => ⟨S3300000x1, .f32⟩
  | .hbm, ⟨73, _⟩ => ⟨S3300000x10, .f32⟩
  | .hbm, ⟨74, _⟩ => ⟨S3300000x10, .f32⟩
  | .hbm, ⟨75, _⟩ => ⟨S_, .f32⟩
  | .hbm, ⟨76, _⟩ => ⟨S100000x10, .f32⟩
  | .hbm, ⟨77, _⟩ => ⟨S3300000x1, .i32⟩
  | .hbm, ⟨78, _⟩ => ⟨S100000x10, .f32⟩
  | .hbm, ⟨79, _⟩ => ⟨S1x10, .f32⟩
  | .hbm, ⟨80, _⟩ => ⟨S100000x10, .f32⟩
  | .hbm, ⟨81, _⟩ => ⟨S100000x10, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x10_S100000x10_1_0_0_1_n_n_wf : DotDims.WF S100000x256 S256x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x10_S100000x10_1_0_0_1_n_n : DotDims S100000x256 S256x10 S100000x10 where
  lhsContracting := [1]
  rhsContracting := [0]
  lhsNonContracting := [0]
  rhsNonContracting := [1]
  lhsBatch := []
  rhsBatch := []
  wf := dot_S100000x256_S256x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

class Facts : Prop extends Facts₀ where

variable [Facts]
-- ==== Proof.KernelFrame.lean ====
import proofs.«166615_j85907935854601_1_alg».proof.Proof.Gen.Kernel.Frame
import proofs.«166615_j85907935854601_1_alg».proof.Proof.Gen.Kernel.Skeleton

/-!
# The frame of the word-level program

The kernel is one pipelined region on a grid of 25 points. Its first window walks the rows of a
100000-row array in blocks of 4096 rows, and 100000 = 24 * 4096 + 1696: the last block overhangs the
array. The transfer that fills the staging buffer at the last point moves the 1696 rows that exist;
the buffer's remaining rows hold words nothing determines. The body multiplies the whole buffer into
the result's buffer, and at the word level the product is read as one opaque function of its whole
operand, so the rows of the result's last block cannot be named either.

The frame does not need them. It says that the six argument arrays end as they began, and the region
writes none of them: the first is an input window's array (the pipeline only reads it), the other
five bypass the region, and no host line after the region writes any of the six. So the proof data
below NAME NOTHING of any staging buffer: every window is forgotten, the body is shown to run from
its three buffers at some contents to the three at some contents, and the launch for relational
proof data gives back the input array at its entry contents and every bypassing buffer that the later
host lines do not write at its entry contents.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data: every window forgotten -/

/-- Every window is forgotten: nothing is said of what any staging buffer holds. -/
def forgets0 : Fin 3 → Bool := fun _ => true

/-- The proof data of the pipeline on core `c`: the arrays as the region finds them; what the body leaves in each
    buffer is not named; the invariant is the class's (the scoped rest and the generator register); nothing is
    owed; full shares. -/
def dats (_ : Fin 1) (c : Dev nD) : Dat τ (Elt F) Unit ℕ (UR sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, h⟩ => Pipeline.Dat.unnamed (cfg := cfg0) ⟨2, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! ## The body, from three buffers at some contents to three buffers at some contents -/

/-- The kernel function on three whole memrefs, each owned at SOME contents: two whole loads, a dead whole load of
    the result's buffer, and one whole store of the product over it. Whatever the loads read, each access is inside
    its buffer, so the function runs; it hands the three memrefs back, each at some contents. -/
theorem kernelRun (c : Dev nD) (i : grid0.Coords)
    (arg1 : Memref sig .tc .vmem S4096x256 .f32) (harg1 : arg1.IsWhole)
    (arg2 : Memref sig .tc .vmem S256x20 .f32) (harg2 : arg2.IsWhole)
    (arg3 : Memref sig .tc .vmem S4096x20 .f32) (harg3 : arg3.IsWhole) :
      ∀ (E : Set ℕ) (K : PUnit → sProp 𝕄),
        iprop((∃ d, owns (c : Thread nD τ) arg1 fullShare d) ∗ (∃ d, owns (c : Thread nD τ) arg2 fullShare d)
            ∗ (∃ d, owns (c : Thread nD τ) arg3 fullShare d)
            ∗ (iprop((∃ d, owns (c : Thread nD τ) arg1 fullShare d) ∗ (∃ d, owns (c : Thread nD τ) arg2 fullShare d)
                ∗ (∃ d, owns (c : Thread nD τ) arg3 fullShare d)) -∗ K ⟨⟩))
          ⊢ wp frame (wpE (defs₀ (F := F)) Variants.none c none) E (cc0__linear_kernel i arg1 harg1 arg2 harg2 arg3 harg3) K := by
  intro E K
  simp only [cc0__linear_kernel_eq_skeleton]; unfold cc0__linear_kernel_skel
  unfold owns
  iintro ⟨⟨%d0, %f0, -, H0⟩, ⟨%d1, %f1, -, H1⟩, ⟨%d2, %f2, -, H2⟩, Hk⟩
  sl_exec
  sl_step
  iapply Hk
  isplitl [H0]
  · iexists _, _; isplitr; swap; · iexact H0
    ipureintro; rfl
  isplitl [H1]
  · iexists _, _; isplitr; swap; · iexact H1
    ipureintro; rfl
  iexists _, _; isplitr; swap; · iexact H2
  ipureintro; rfl

/-- What the body is called with at point `t`: the invariant, what is owed, and each window's current staging
    buffer at some contents, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d))

/-- and what it returns: the same, the buffers again at some contents. -/
def bodyPost (c : Dev nD) (t : Fin cfg0.N) : sProp 𝕄 :=
  iprop((dats m 0 c).Φ t.succ ∗ (dats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d))

/-- The body at any point: the invariant and what is owed pass through unread (they are the same at every
    position), and the three buffers go through the kernel function. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, H0, H1, H2⟩
  iapply ((kernelRun c (grid0.coords t) _ _ _ _ _ _) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

/-- The library's body obligation, at every point, every window forgotten. -/
theorem body_obligation (c : Dev nD) :
    BodyObligation (dats (F := F) m 0 c) (defs₀ (F := F)) Variants.none () Set.univ forgets0 := fun t => by
  rw [bigSep_W0, bigSep_W0]
  exact sound_body m c t

/-! ## The host lines after the region -/

/-- The buffers the frame follows past the region: the five arguments that bypass it. -/
def kept : Finset (Ref sig .tc) := {main_arg1, main_arg2, main_arg3, main_arg4, main_arg5}

/-- Every other buffer: a set that holds whatever the later host lines write. -/
def T : Finset (Ref sig .tc) := Finset.univ \ kept

/-- No host line after the region writes `main_arg1`. -/
theorem tail_keeps_arg1 : ∀ op ∈ (hostOps1 : List (HloOp τ sig (Elt F))), Proc.devRef (τ := τ) .tc main_arg1 ∉ op.writes :=
  List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))
/-- No host line after the region writes `main_arg2`. -/
theorem tail_keeps_arg2 : ∀ op ∈ (hostOps1 : List (HloOp τ sig (Elt F))), Proc.devRef (τ := τ) .tc main_arg2 ∉ op.writes :=
  List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))
/-- No host line after the region writes `main_arg3`. -/
theorem tail_keeps_arg3 : ∀ op ∈ (hostOps1 : List (HloOp τ sig (Elt F))), Proc.devRef (τ := τ) .tc main_arg3 ∉ op.writes :=
  List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))
/-- No host line after the region writes `main_arg4`. -/
theorem tail_keeps_arg4 : ∀ op ∈ (hostOps1 : List (HloOp τ sig (Elt F))), Proc.devRef (τ := τ) .tc main_arg4 ∉ op.writes :=
  List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))
/-- No host line after the region writes `main_arg5`. -/
theorem tail_keeps_arg5 : ∀ op ∈ (hostOps1 : List (HloOp τ sig (Elt F))), Proc.devRef (τ := τ) .tc main_arg5 ∉ op.writes :=
  List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))

/-- Each host line after the region writes only its own result buffer, none of the five: all it writes is in `T`. -/
theorem tail_writes_T : ∀ ops ∈ ([hostOps1] : List (List (HloOp τ sig (Elt F)))), ∀ op ∈ ops,
    ∀ b : Ref sig .tc, Proc.devRef (τ := τ) .tc b ∈ op.writes → b ∈ T := by
  intro ops hops op hop b hb
  simp only [List.mem_cons, List.mem_nil_iff, or_false] at hops
  subst hops
  refine Finset.mem_sdiff.mpr ⟨Finset.mem_univ _, fun hk => ?_⟩
  simp only [kept, Finset.mem_insert, Finset.mem_singleton] at hk
  rcases hk with rfl | rfl | rfl | rfl | rfl
  · exact tail_keeps_arg1 op hop hb
  · exact tail_keeps_arg2 op hop hb
  · exact tail_keeps_arg3 op hop hb
  · exact tail_keeps_arg4 op hop hb
  · exact tail_keeps_arg5 op hop hb

/-- None of the five is in `T`. -/
theorem not_mem_T {b : Ref sig .tc} (hb : b ∈ kept) : b ∉ T := fun h => (Finset.mem_sdiff.mp h).2 hb

/-! ## The run and the frame -/

set_option backward.isDefEq.respectTransparency.types false in
/-- From any memory with zero counters, every weakly fair execution of @main on the TensorCores terminates, and in
    every final state each window's array holds contents it may hold after every write-back (an input's: its entry
    contents) and every bypassing buffer outside `T` holds its region-entry contents. -/
theorem run_main : θ_run defs (onTc (τ := τ) (main (F := F))) (s₀ m ρ)
    (Pipeline.RDat.FramePostR (cfgs 0) (fun c => (dats m 0 c).toRForget forgets0) T (fun c b => V0 m c (Proc.devRef .tc b))) :=
  Pipeline.RDat.θ_run_frame_around_T cfgs (0 : Fin 1) launch0 defs₀ Variants.none (fun c => (dats m 0 c).toRForget forgets0) T m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps)
    (hT := tail_writes_T) (hmain := hmain m Variants.none) (hA := A_eq m) (hΦ := fun _ _ => rfl)

/-- THE FRAME: the six argument arrays end as they began. The first is input window 0's array, which the run leaves
    at its entry contents; the other five bypass the region and lie outside `T`; and no host line before the region
    writes any of the six. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(Pipeline.RDat.FramePostR.arr_in h c 0 rfl).trans ((A_eq m c 0).trans (V_main_arg0 m c)),
      ((h c).2 main_arg1 (Finset.mem_sdiff.mpr ⟨Pipeline.mem_restRefs_of main_arg1 (by decide) (by decide),
        not_mem_T (by simp only [kept, Finset.mem_insert, Finset.mem_singleton, true_or, or_true])⟩)).trans (V_main_arg1 m c),
      ((h c).2 main_arg2 (Finset.mem_sdiff.mpr ⟨Pipeline.mem_restRefs_of main_arg2 (by decide) (by decide),
        not_mem_T (by simp only [kept, Finset.mem_insert, Finset.mem_singleton, true_or, or_true])⟩)).trans (V_main_arg2 m c),
      ((h c).2 main_arg3 (Finset.mem_sdiff.mpr ⟨Pipeline.mem_restRefs_of main_arg3 (by decide) (by decide),
        not_mem_T (by simp only [kept, Finset.mem_insert, Finset.mem_singleton, true_or, or_true])⟩)).trans (V_main_arg3 m c),
      ((h c).2 main_arg4 (Finset.mem_sdiff.mpr ⟨Pipeline.mem_restRefs_of main_arg4 (by decide) (by decide),
        not_mem_T (by simp only [kept, Finset.mem_insert, Finset.mem_singleton, true_or, or_true])⟩)).trans (V_main_arg4 m c),
      ((h c).2 main_arg5 (Finset.mem_sdiff.mpr ⟨Pipeline.mem_restRefs_of main_arg5 (by decide) (by decide),
        not_mem_T (by simp only [kept, Finset.mem_insert, Finset.mem_singleton, true_or, or_true])⟩)).trans (V_main_arg5 m c)⟩)
    (run_main m ρ)

end Cert.Kernel.Hand

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.LibDotPlain.lean ====
/-
  A general lemma. The host's plain matrix product of an [M, K] array by a [K, N] array (the left operand contracted
  on its second axis, the right on its first, no batch axes), read at the exact instance, is at entry (p, q) the
  finite sum over the contraction coordinate k of left (p, k) · right (k, q). The host product has no accumulator, so
  nothing is added in front of the sum. It holds for all sizes, both operands' formats and any precision key.
-/
import Idealize.ShloMosaic.Lib.ValueIdx
import Idealize.ShloMosaic.PureOps.Ideal.Laws
import proofs.«166615_j85907935854601_1_alg».proof.Proof.LibMatmulPlain

namespace Idealize.ShloMosaic.DotPlain

open Idealize.ShloMosaic Idealize.ShloMosaic.ValueIdx Idealize.ShloMosaic.MatmulPlain

variable {M K N : ℕ}

/-- Entry (p, q) of the host's plain product is ∑ k, left (p, k) · right (k, q). -/
theorem dotGeneral_apply {φ₁ φ₂ : FTy} (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  show FloatOps.dotGeneral (DotDims.plain M K N) prec .single l r (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.DotPlain
-- ==== Proof.IdealRegion.lean ====
import proofs.«166615_j85907935854601_1_alg».proof.Proof.Gen.KernelIdeal.Frame
import proofs.«166615_j85907935854601_1_alg».proof.Proof.Gen.KernelIdeal.Skeleton
import proofs.«166615_j85907935854601_1_alg».proof.Proof.LibDotPlain
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The product of a 100000×256 array by a 256×20 array: entry (p, q) is ∑ k, x (p, k) · w (k, q). -/
def prodArr (x : FVec Ideal S100000x256 .f32) (w : FVec Ideal S256x20 .f32) : FVec Ideal S100000x20 .f32 :=
  Host.dotGeneral (DotDims.plain 100000 256 20) none x w

theorem prodArr_apply (x : FVec Ideal S100000x256 .f32) (w : FVec Ideal S256x20 .f32) (p : Fin 100000) (q : Fin 20) :
    prodArr x w (ValueIdx.ix2 p q) = ∑ k : Fin 256, x (ValueIdx.ix2 p k) * w (ValueIdx.ix2 k q) :=
  DotPlain.dotGeneral_apply none x w p q

/-- Input window 0's staging contents after its fetch at point `t`: the rows of `x` inside the array, and the zero word on the
    rows past the array's end (at the last point), which nothing reads back. -/
def xfull (c : Dev nD) (t : Fin cfg0.N) : S4096x256.Idx → Elt Ideal .f32 :=
  win0_0.fill (grid0.coords t) (fun _ => (0 : EReal)) (iblk m c 0 t)

/-- The proof data: the arrays as the region finds them; after the body the first input's buffer at its filled block, the weight's
    at its block, the result's at the product of the two. -/
def dats (_ : Fin 1) (c : Dev nD) : Dat τ (Elt Ideal) Unit ℕ (UR sig nD τ) ℕ cfg0 c where
  A w := V m c (Pipeline.arrRef spec0 w)
  after w t := match w with
    | ⟨0, _⟩ => xfull m c t
    | ⟨1, _⟩ => iblk m c 1 t
    | ⟨2, _⟩ => k0_pay1 (F := Ideal) (xfull m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

/-- Entry (p, q) of the body's payload at the exact instance: the narrowing to bf16 and the cast to the same shape are the
    identity, and the product into the zero accumulator is the plain sum over the contraction coordinate. -/
theorem k0_pay1_apply (X : S4096x256.Idx → Elt Ideal .f32) (W : S256x20.Idx → Elt Ideal .f32) (p : Fin 4096) (q : Fin 20) :
    k0_pay1 (F := Ideal) X W (ValueIdx.ix2 p q) = ∑ k : Fin 256, X (ValueIdx.ix2 p k) * W (ValueIdx.ix2 k q) := by
  unfold k0_pay1
  rw [shapeCast_self]
  exact MatmulPlain.matmul_zero_apply (M := 4096) (K := 256) (N := 20) none X W p q

set_option maxHeartbeats 1600000 in  -- four buffer choices, each a symbolic run of the body's three loads and its store
/-- The body on staging buffers `s0`, `s1`, `s2` of the three windows: it reads the first two whole, reads the third (a value it
    does not use), and overwrites the third whole with the payload of the first two; the first two are left as found. -/
theorem sound_body (c : Dev nD) (E : Set ℕ) (i : grid0.Coords) (s0 : Fin 2) (s1 : Fin 1) (s2 : Fin 2)
    (X0 : S4096x256.Idx → Elt Ideal .f32) (X1 : S256x20.Idx → Elt Ideal .f32) (X2 : S4096x20.Idx → Elt Ideal .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 (F := Ideal) X0 X1)) -∗ K ⟨⟩))
      ⊢ wp frame (wpE (defs₀ (F := Ideal)) Variants.none c none) E
          (cc0__linear_kernel i (stage0_0 s0) (hstage0_0 s0) (stage0_1 s1) (hstage0_1 s1) (stage0_2 s2) (hstage0_2 s2)) K := by
  have hz : (![0, 0] : Fin 2 → Nat) = fun _ => 0 := funext fun a => by fin_cases a <;> rfl
  -- a load through the whole of a buffer reads its contents, an unmasked store through the whole of it leaves the payload
  have r00 : ∀ f, (Memref.whole cc0_stg0_0 : Memref sig .tc _ _ _).view.readAt (Elt Ideal) (Rect.unit (s := S4096x256) ![0, 0]
      S4096x256.size inb_S4096x256_S4096x256_0_0).toLoadRect f = f := Memref.readAt_unit_zero (Elt Ideal) cc0_stg0_0 hz _
  have r01 : ∀ f, (Memref.whole cc0_stg0_1 : Memref sig .tc _ _ _).view.readAt (Elt Ideal) (Rect.unit (s := S4096x256) ![0, 0]
      S4096x256.size inb_S4096x256_S4096x256_0_0).toLoadRect f = f := Memref.readAt_unit_zero (Elt Ideal) cc0_stg0_1 hz _
  have r10 : ∀ f, (Memref.whole cc0_stg1_0 : Memref sig .tc _ _ _).view.readAt (Elt Ideal) (Rect.unit (s := S256x20) ![0, 0]
      S256x20.size inb_S256x20_S256x20_0_0).toLoadRect f = f := Memref.readAt_unit_zero (Elt Ideal) cc0_stg1_0 hz _
  have w20 : ∀ f w, (((Memref.whole cc0_stg2_0).access (Rect.unit (s := S4096x20) ![0, 0] S4096x20.size inb_S4096x20_S4096x20_0_0)) :
      View sig .tc _ _ _).write (Elt Ideal) f w Finset.univ = w := Memref.write_access_unit_zero_univ (Elt Ideal) cc0_stg2_0 hz _
  have w21 : ∀ f w, (((Memref.whole cc0_stg2_1).access (Rect.unit (s := S4096x20) ![0, 0] S4096x20.size inb_S4096x20_S4096x20_0_0)) :
      View sig .tc _ _ _).write (Elt Ideal) f w Finset.univ = w := Memref.write_access_unit_zero_univ (Elt Ideal) cc0_stg2_1 hz _
  fin_cases s0 <;> fin_cases s1 <;> fin_cases s2
  all_goals
    dsimp only [stage0_0, stage0_1, stage0_2]
    simp only [owns_whole_eq, cc0__linear_kernel_eq_skeleton]; unfold cc0__linear_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    first | rw [r00] | rw [r01]
    rw [r10]
    first | rw [w20] | rw [w21]
    subst hf0 hf1
    isplitl [H0]
    · iexists f0; isplitr
      · ipureintro; rfl
      · iexact H0
    isplitl [H1]
    · iexists f1; isplitr
      · ipureintro; rfl
      · iexact H1
    · iexists k0_pay1 (F := Ideal) f0 f1; isplitr
      · ipureintro; rfl
      · iexact H2

/-- The printed index maps and cuts, decided over the grid's 25 points: windows 0 and 2 are cut alike on the row axis and
    not at all on the column axis. -/
theorem cut_facts : ∀ t : Fin cfg0.N, win0_0.xsize (grid0.coords t) 0 = win0_2.xsize (grid0.coords t) 0
    ∧ win0_0.xsize (grid0.coords t) 1 = 256 :=
  (by decide +kernel : ∀ t : Fin grid0.N, win0_0.xsize (grid0.coords t) 0 = win0_2.xsize (grid0.coords t) 0
    ∧ win0_0.xsize (grid0.coords t) 1 = 256)

/-- Two fillings of one block agree wherever the transfer moves the block: there both hold the block. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- ROW-LOCALITY of the product: the rows of the payload that window 2's write-back moves (those inside the array) depend
    only on the rows of the first operand that window 0's fetch moved — whatever fills the first operand's buffer past
    the array's end. -/
theorem cut_pay (t : Fin cfg0.N) (d d' : S4096x256.Idx → Elt Ideal .f32)
    (g : (win0_0.xblock (grid0.coords t)).Idx → Elt Ideal .f32) (W : S256x20.Idx → Elt Ideal .f32) :
    win0_2.cut (grid0.coords t) (k0_pay1 (F := Ideal) (win0_0.fill (grid0.coords t) d g) W)
      = win0_2.cut (grid0.coords t) (k0_pay1 (F := Ideal) (win0_0.fill (grid0.coords t) d' g) W) := by
  obtain ⟨e0, e1⟩ := cut_facts t
  funext j
  -- the moved index, by its coordinates: row `p` (the moved row's own number) and column `q`
  obtain ⟨p, q, hpq, hp⟩ : ∃ (p : Fin 4096) (q : Fin 20), win0_2.xinj (grid0.coords t) j = ValueIdx.ix2 p q ∧ p.val = (j 0).val :=
    ⟨win0_2.xinj (grid0.coords t) j 0, win0_2.xinj (grid0.coords t) j 1, ValueIdx.eq_ix2 _, rfl⟩
  show k0_pay1 (F := Ideal) _ W (win0_2.xinj (grid0.coords t) j) = k0_pay1 (F := Ideal) _ W (win0_2.xinj (grid0.coords t) j)
  rw [hpq, k0_pay1_apply, k0_pay1_apply]
  refine Finset.sum_congr rfl fun k _ => ?_
  have hj : (j 0).val < win0_2.xsize (grid0.coords t) 0 := (j 0).isLt
  have hk : k.val < 256 := k.isLt
  -- row `p` of the first operand is a row the fetch moved, all 256 columns of it
  have hm : win0_0.moved (grid0.coords t) (ValueIdx.ix2 p k) = true := (win0_0.moved_iff _ _).mpr fun (a : Fin 2) => by
    match a with
    | ⟨0, _⟩ => show p.val < win0_0.xsize (grid0.coords t) 0; omega
    | ⟨1, _⟩ => show k.val < win0_0.xsize (grid0.coords t) 1; omega
  rw [fill_eq_of_moved win0_0 (grid0.coords t) d d' g hm]

/-- What the body finds in window 0's buffer: the fetch at this point has just landed the block's rows inside the array
    over contents `d` nothing names. -/
theorem before_0 (c : Dev nD) (t : Fin cfg0.N) (d) :
    (dats m 0 c).before 0 t d = win0_0.fill (grid0.coords t) d (iblk m c 0 t) := by
  rw [(dats m 0 c).before_fetched 0 t (fetch0_0 t)]
  unfold Dat.fetched Dat.blockOf iblk
  rw [A_eq]

/-- In window 1's: the weight block, fetched at the first point and left in place by every body since. -/
theorem before_1 (c : Dev nD) (t : Fin cfg0.N) (d) : (dats m 0 c).before 1 t d = iblk m c 1 t :=
  before0_1_of m (dats m 0 c) (A_eq m c 1) (fun t => by dsimp only [dats]) t d

/-- In window 2's: contents nothing names — the first point, or the point after a write-back. -/
theorem before_2 (c : Dev nD) (t : Fin cfg0.N) (d) : (dats m 0 c).before 2 t d = d :=
  (dats m 0 c).before_out_reset 2 rfl t (by
    by_cases h0 : t.val = 0
    · exact .inl h0
    · exact .inr ⟨h0, flush0_2 _⟩) d

/-- The body obligation at every point: the body finds window 0's buffer at its block filled out past the array's end with
    contents nothing names, window 1's at the weight block and window 2's at anything; it leaves the first two as found and
    the third at their product, which on the rows inside the array is the product of the block itself (`cut_pay`) — all
    that the two cut windows' obligations state; the uncut window 1 is left at its block exactly. -/
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_body c Set.univ (grid0.coords t) (cfg0.slots t 0) (cfg0.slots t 1) (cfg0.slots t 2)
    (win0_0.fill (grid0.coords t) d0 (iblk m c 0 t)) (iblk m c 1 t) d2 _)
  isplitl [H0 H1 H2]
  · isplitl [H0]
    · iexact H0
    isplitl [H1]
    · iexact H1
    · iexact H2
  iintro ⟨H0, H1, H2⟩
  isplitl [HΦ]
  · iexact HΦ
  isplitl [Ho]
  · iexact Ho
  dsimp only [dats]
  -- window 0 (loose): on the rows inside the array its buffer holds the block, as `xfull` does (`Window.cut_fill`)
  have hx : win0_0.cut (grid0.coords t) (xfull m c t) = iblk m c 0 t := win0_0.cut_fill _ _ _
  -- window 2 (loose): on the rows inside the array the product does not see what fills the first operand past the array
  have hp : win0_2.fill (grid0.coords t) (k0_pay1 (F := Ideal) (win0_0.fill (grid0.coords t) d0 (iblk m c 0 t)) (iblk m c 1 t))
        (win0_2.cut (grid0.coords t) (k0_pay1 (F := Ideal) (xfull m c t) (iblk m c 1 t)))
      = k0_pay1 (F := Ideal) (win0_0.fill (grid0.coords t) d0 (iblk m c 0 t)) (iblk m c 1 t) :=
    win0_2.fill_congr_cut (grid0.coords t) (cut_pay t d0 _ (iblk m c 0 t) (iblk m c 1 t))
  isplitl [H0]
  · iexists d0
    change _ ⊢ owns (c : Thread nD τ) (stage0_0 (cfg0.slots t 0)) fullShare
      (win0_0.fill (grid0.coords t) d0 (win0_0.cut (grid0.coords t) (xfull m c t)))
    rw [hx]
  isplitl [H1]
  · iexact H1
  · iexists k0_pay1 (F := Ideal) (win0_0.fill (grid0.coords t) d0 (iblk m c 0 t)) (iblk m c 1 t)
    change _ ⊢ owns (c : Thread nD τ) (stage0_2 (cfg0.slots t 2)) fullShare
      (win0_2.fill (α := Elt Ideal .f32) (grid0.coords t)
        (k0_pay1 (F := Ideal) (win0_0.fill (grid0.coords t) d0 (iblk m c 0 t)) (iblk m c 1 t))
        (win0_2.cut (α := Elt Ideal .f32) (grid0.coords t) (k0_pay1 (F := Ideal) (xfull m c t) (iblk m c 1 t))))
    rw [hp]

set_option backward.isDefEq.respectTransparency.types false in
/-- The region's run inside @main at the exact instance: every weakly fair execution terminates with the three windowed
    arrays at what the proof data compute for them after the last write-back, and every other array as the host
    operations after the region leave it. -/
theorem run_region : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) 0 launch0 defs₀ Variants.none m ρ main
    (hbody := fun c => body_obligation m c)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

end Cert.KernelIdeal.Hand

end
-- ==== Proof.IdealFinal.lean ====
/-
  The result array of the region, after the run, is the whole product.

  The region walks the 100000 rows of x in 25 blocks of 4096 rows; the last block has only 1696 rows inside the array. At
  point t the body stores, over its whole staging block, the product of the block of x it holds by the whole weight array w.
  Entry (p, q) of that product is ∑ k, X (p, k) · w (k, q): it reads row p of the staged block and no other row, so the rows of
  the product that lie inside the array never see what the staging buffer holds past the array's end. The write-back moves
  exactly the rows inside the array, and row p of block t is row 4096·t + p of x. Hence what point t writes back is block t of
  the one array  x · w,  and since row r of the result lies in block r / 4096, the blocks cover the array: it ends holding x · w.
-/
import proofs.«166615_j85907935854601_1_alg».proof.Proof.IdealRegion
import proofs.«166615_j85907935854601_1_alg».proof.Proof.LibMatmulPlain
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ) (ρ : Dev nD → PrngReg)

/-- The body's product at exact values: entry (p, q) of the block it stores is ∑ k, X (p, k) · W (k, q) (rounding the operands
    to a narrower format changes nothing at exact values). -/
theorem pay_apply (X : FVec Ideal S4096x256 .f32) (W : FVec Ideal S256x20 .f32) (p : Fin 4096) (q : Fin 20) :
    k0_pay1 (F := Ideal) X W (ix2 p q) = ∑ k : Fin 256, X (ix2 p k) * W (ix2 k q) := by
  unfold k0_pay1
  rw [shapeCast_self]
  exact MatmulPlain.matmul_zero_apply (M := 4096) (K := 256) (N := 20) none X W p q

/-- The printed index maps and the cut block extents, decided over the 25 points: blocks 0 … 23 are whole (4096 rows), block 24
    keeps the 1696 rows inside the array; the weight's one block is the whole array. -/
theorem grid_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_0.xsize (grid0.coords t) (0 : Fin 2) = win0_2.xsize (grid0.coords t) (0 : Fin 2)
    ∧ win0_0.xsize (grid0.coords t) (1 : Fin 2) = 256
    ∧ win0_2.xsize (grid0.coords t) (1 : Fin 2) = 20
    ∧ t.val * 4096 + win0_2.xsize (grid0.coords t) (0 : Fin 2) ≤ 100000
    ∧ win0_2.xsize (grid0.coords t) (0 : Fin 2) ≤ 4096
    ∧ (t.val < 24 → win0_2.xsize (grid0.coords t) (0 : Fin 2) = 4096)
    ∧ (t.val = 24 → win0_2.xsize (grid0.coords t) (0 : Fin 2) = 1696) :=
  (by decide +kernel : ∀ t : Fin grid0.N, _)

/-- The first input's staging contents at a row inside the array are the array's: row p of block t is row 4096·t + p of x. -/
theorem x_read (c : Dev nD) (t : Fin cfg0.N) (p : Fin 4096) (k : Fin 256) (r : Fin 100000)
    (hp : p.val < win0_0.xsize (grid0.coords t) (0 : Fin 2)) (hr : r.val = t.val * 4096 + p.val) :
    xfull m c t (ix2 p k) = V m c main_arg0 (ix2 r k) := by
  obtain ⟨e00, e01, -, -, -, -, -, hx1, -⟩ := grid_facts t
  have hmoved : win0_0.moved (grid0.coords t) (ix2 p k) = true := (win0_0.moved_iff _ _).mpr fun a => by
    match a with
    | ⟨0, _⟩ => exact hp
    | ⟨1, _⟩ => show k.val < win0_0.xsize (grid0.coords t) (1 : Fin 2); rw [hx1]; exact k.isLt
  unfold xfull Window.fill
  rw [dif_pos hmoved]
  show V m c main_arg0 (((cfg0.win 0).blk t).view.emb _) = V m c main_arg0 (ix2 r k)
  refine congrArg (V m c main_arg0) (funext fun a => Fin.ext ?_)
  match a with
  | ⟨0, _⟩ => show win0_0.index t (0 : Fin 2) * 4096 + 1 * p.val = r.val; omega
  | ⟨1, _⟩ => show win0_0.index t (1 : Fin 2) * 256 + 1 * k.val = k.val; omega

/-- The weight's staging block is the whole weight array. -/
theorem w_read (c : Dev nD) (t : Fin cfg0.N) (k : Fin 256) (q : Fin 20) :
    iblk m c 1 t (ix2 k q) = V m c main_v0 (ix2 k q) := by
  obtain ⟨-, -, e10, e11, -⟩ := grid_facts t
  show V m c main_v0 (((cfg0.win 1).blk t).view.emb (ix2 k q)) = V m c main_v0 (ix2 k q)
  refine congrArg (V m c main_v0) (funext fun a => Fin.ext ?_)
  match a with
  | ⟨0, _⟩ => show win0_1.index t (0 : Fin 2) * 256 + 1 * k.val = k.val; omega
  | ⟨1, _⟩ => show win0_1.index t (1 : Fin 2) * 20 + 1 * q.val = q.val; omega

/-- WHAT POINT t WRITES BACK — the rows of the stored product that lie inside the array — is block t of the whole product x · w:
    entry (p, q) of the block is ∑ k, x (4096·t + p, k) · w (k, q), which reads no row of the staging buffer past the array's end. -/
theorem flushed_eq (c : Dev nD) (t : Fin cfg0.N) :
    (dats m 0 c).flushed 2 t = ((cfg0.win 2).blk t).view.read (Elt Ideal) (prodArr (V m c main_arg0) (V m c main_v0)) := by
  show (cfg0.win 2).cut (grid0.coords t) ((dats m 0 c).after 2 t) = _
  have ha : (dats m 0 c).after 2 t = k0_pay1 (F := Ideal) (xfull m c t) (iblk m c 1 t) := by dsimp only [dats]
  rw [ha]
  obtain ⟨-, -, -, -, e20, e21, hx0, -, hx2, hle, hle2, -, -⟩ := grid_facts t
  funext j
  have hj0 : (j 0).val < win0_2.xsize (grid0.coords t) (0 : Fin 2) := (j 0).isLt
  have hj1 : (j 1).val < win0_2.xsize (grid0.coords t) (1 : Fin 2) := (j 1).isLt
  have hin : win0_2.xinj (grid0.coords t) j = ix2 (⟨(j 0).val, by omega⟩ : Fin 4096) (⟨(j 1).val, by omega⟩ : Fin 20) :=
    funext fun a => Fin.ext (by match a with | ⟨0, _⟩ => rfl | ⟨1, _⟩ => rfl)
  have hemb : ((cfg0.win 2).blk t).view.emb j
      = ix2 (⟨t.val * 4096 + (j 0).val, by omega⟩ : Fin 100000) (⟨(j 1).val, by omega⟩ : Fin 20) :=
    funext fun a => Fin.ext (by
      match a with
      | ⟨0, _⟩ => show win0_2.index t (0 : Fin 2) * 4096 + 1 * (j 0).val = t.val * 4096 + (j 0).val; omega
      | ⟨1, _⟩ => show win0_2.index t (1 : Fin 2) * 20 + 1 * (j 1).val = (j 1).val; omega)
  show k0_pay1 (F := Ideal) (xfull m c t) (iblk m c 1 t) (win0_2.xinj (grid0.coords t) j)
    = prodArr (V m c main_arg0) (V m c main_v0) (((cfg0.win 2).blk t).view.emb j)
  rw [hin, hemb, pay_apply, prodArr_apply]
  refine Finset.sum_congr rfl fun k _ => ?_
  rw [x_read m c t _ k (⟨t.val * 4096 + (j 0).val, by omega⟩ : Fin 100000) (by show (j 0).val < _; omega) rfl, w_read m c t k _]

/-- An index of the result array is in point t's block iff its row is among the block's rows inside the array (every column is). -/
theorem mem_blk (t : Fin cfg0.N) (i : S100000x20.Idx) :
    i ∈ ((cfg0.win 2).blk t).view.set
      ↔ t.val * 4096 ≤ (i 0).val ∧ (i 0).val < t.val * 4096 + win0_2.xsize (grid0.coords t) (0 : Fin 2) := by
  obtain ⟨-, -, -, -, e20, e21, -, -, hx2, -⟩ := grid_facts t
  show i ∈ ((View.whole main_v1).slice (win0_2.rect t)).set ↔ _
  rw [View.set_slice_whole, Rect.mem_set_unit]
  have h1 : (i 1).val < 20 := (i 1).isLt
  constructor
  · intro h
    have h0 : win0_2.index t (0 : Fin 2) * 4096 ≤ (i 0).val
        ∧ (i 0).val < win0_2.index t (0 : Fin 2) * 4096 + win0_2.xsize (grid0.coords t) (0 : Fin 2) := h 0
    omega
  · intro h a
    match a with
    | ⟨0, _⟩ =>
      show win0_2.index t (0 : Fin 2) * 4096 ≤ (i 0).val
        ∧ (i 0).val < win0_2.index t (0 : Fin 2) * 4096 + win0_2.xsize (grid0.coords t) (0 : Fin 2)
      omega
    | ⟨1, _⟩ =>
      show win0_2.index t (1 : Fin 2) * 20 ≤ (i 1).val
        ∧ (i 1).val < win0_2.index t (1 : Fin 2) * 20 + win0_2.xsize (grid0.coords t) (1 : Fin 2)
      omega

/-- Every row of the result array is in some point's block: row r in block r / 4096 (the last block holds rows 98304 … 99999). -/
theorem covered (i : S100000x20.Idx) :
    ∃ t : Fin cfg0.N, (cfg0.win 2).flush t = true ∧ i ∈ ((cfg0.win 2).blk t).view.set := by
  have hi : (i 0).val < 100000 := (i 0).isLt
  have hN : cfg0.N = 25 := N_0
  refine ⟨⟨(i 0).val / 4096, by rw [hN]; omega⟩, flush0_2 _, ?_⟩
  rw [mem_blk]
  obtain ⟨-, -, -, -, -, -, -, -, -, -, -, hfull, hlast⟩ := grid_facts ⟨(i 0).val / 4096, by rw [hN]; omega⟩
  show (i 0).val / 4096 * 4096 ≤ (i 0).val ∧ (i 0).val < (i 0).val / 4096 * 4096 + _
  by_cases h24 : (i 0).val / 4096 < 24
  · rw [hfull h24]; omega
  · have e : (i 0).val / 4096 = 24 := by omega
    rw [hlast e]; omega

/-- The result array after the run is the product x · w on every one of its 100000 rows. -/
theorem final2 (c : Dev nD) : (dats m 0 c).arrAt 2 cfg0.N = prodArr (V m c main_arg0) (V m c main_v0) :=
  (dats m 0 c).arrAt_eq_of_cover 2 _ (fun t _ => flushed_eq m c t) covered

end Cert.KernelIdeal.Hand

end
-- ==== Proof.LibRowIndex.lean ====
/-
  Reading a row gather and a row scatter-add at an index.

  `x[idx]` over the rows of a matrix `x : [N, C]` at a column of row numbers `idx : [n, 1]` is the gather whose
  result row `i` is row `idx[i]` of `x`, the number read signed and clamped into `[0, N - 1]`.
  `segment_sum` of the rows of `upd : [n, C]` by the row numbers `idx : [n, 1]` into `x : [R, C]` is the
  scatter with an add body: at the ideal instance element `(r, c)` of the result is `x (r, c)` plus the sum over
  the update rows `i` whose number, read signed and NOT clamped, is `r`, of `upd (i, c)`; a row whose number is
  outside `[0, R)` contributes nowhere.
-/
import Idealize.ShloMosaic.PureOps.Ideal
import Idealize.ShloMosaic.Lib.ValueIdx

noncomputable section

namespace Idealize.ShloMosaic.RowIndex

open Idealize.ShloMosaic Idealize.ShloMosaic.ValueIdx

/-- The dimension numbers of a gather of whole rows: operand `[N, C]`, row numbers `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Result element `(i, j)` of a row gather is the operand at row `idx[i, 0]` (signed, clamped), column `j`. -/
theorem gather_rows_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (i : Fin n) (j : Fin C) :
    Host.gather (rowGatherDims N C n wf) x idx (ix2 i j)
      = x (ix2 (⟨min (idx (ix2 i (0 : Fin 1))).toInt.toNat (N - 1), by omega⟩ : Fin N) j) := by
  unfold Host.gather
  congr 1
  funext a
  refine Fin.ext ?_
  match a with
  | ⟨0, _⟩ =>
    -- the row axis is collapsed and named by the start index map: the clamped row number, no batch or offset part
    show (rowGatherDims N C n wf).start (ix2 i j) idx 0 + (rowGatherDims N C n wf).batchCoord (ix2 i j) 0
        + (rowGatherDims N C n wf).offCoord (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 i j) ⟨List.idxOf (0 : Fin 2) (rowGatherDims N C n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    -- the column axis is the one offset axis: the slice starts at 0 and the offset is the result's column
    show (rowGatherDims N C n wf).start (ix2 i j) idx 1 + (rowGatherDims N C n wf).batchCoord (ix2 i j) 1
        + (rowGatherDims N C n wf).offCoord (ix2 i j) 1 = j.val
    rw [GatherDims.batchCoord_eq_zero _ _ _ List.not_mem_nil]
    have hs : (rowGatherDims N C n wf).start (ix2 i j) idx 1 = 0 := by
      unfold GatherDims.start
      rw [dif_neg (show (1 : Fin 2) ∉ ([0] : List (Fin 2)) by decide)]
    have ho : (rowGatherDims N C n wf).offCoord (ix2 i j) 1 = j.val := by
      unfold GatherDims.offCoord
      rw [dif_pos ((GatherDims.mem_sKept _ _).2 ⟨show (1 : Fin 2) ∉ ([0] : List (Fin 2)) by decide, List.not_mem_nil⟩)]
      rfl
    rw [hs, ho]; omega

/-- The dimension numbers of a scatter of whole rows: operand `[R, C]`, row numbers `[n, 1]`, updates `[n, C]`. -/
abbrev rowScatterDims (R C n : Nat)
    (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

/-- On the row axis the window of update element `(i, c')` starts at row `i`'s number, read signed. -/
theorem start_rows_zero {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 0 = (idx (ix2 i (0 : Fin 1))).toInt := by
  unfold ScatterDims.start
  rw [dif_pos (show (0 : Fin 2) ∈ (rowScatterDims R C n wf).scatterDimsToOperandDims from List.mem_singleton.mpr rfl)]
  have hsi : (rowScatterDims R C n wf).siIdx (ix2 i c')
      ⟨List.idxOf (0 : Fin 2) (rowScatterDims R C n wf).scatterDimsToOperandDims,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]

/-- On the column axis, which the scatter indices do not name, the window starts at `0`. -/
theorem start_rows_one {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 1 = 0 := by
  unfold ScatterDims.start
  rw [dif_neg (show (1 : Fin 2) ∉ ([0] : List (Fin 2)) by decide)]

/-- The row axis is inserted: the window coordinate there is `0`. -/
theorem window_rows_zero {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 0 = 0 := by
  unfold ScatterDims.window
  have h : (0 : Fin 2) ∉ (rowScatterDims R C n wf).sKept := by
    show (0 : Fin 2) ∉ (List.finRange 2).filter (· ∉ ([0] : List (Fin 2)))
    decide
  rw [dif_neg h]

/-- The column axis is the one window axis: the window coordinate there is the update's column. -/
theorem window_rows_one {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 1 = c'.val := by
  unfold ScatterDims.window
  have h : (1 : Fin 2) ∈ (rowScatterDims R C n wf).sKept := by
    show (1 : Fin 2) ∈ (List.finRange 2).filter (· ∉ ([0] : List (Fin 2)))
    decide
  rw [dif_pos h]
  rfl

/-- Where update element `(i, c')` of a row scatter lands: at `(r, c)` exactly when row `i`'s number is `r` and
    `c' = c`. -/
theorem resultIdx_rows_iff {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) (r : Fin R) (c : Fin C) :
    (rowScatterDims R C n wf).resultIdx? (ix2 i c') idx = some (ix2 r c)
      ↔ (idx (ix2 i (0 : Fin 1))).toInt = (r.val : Int) ∧ c' = c := by
  have hs0 := start_rows_zero wf idx i c'
  have hs1 := start_rows_one wf idx i c'
  have hw0 := window_rows_zero wf i c'
  have hw1 := window_rows_one wf i c'
  have hr := r.isLt
  have hc := c.isLt
  have hc' := c'.isLt
  unfold ScatterDims.resultIdx?
  by_cases h : ∀ a : Fin 2, 0 ≤ (rowScatterDims R C n wf).start (ix2 i c') idx a + (rowScatterDims R C n wf).window (ix2 i c') a
      ∧ (rowScatterDims R C n wf).start (ix2 i c') idx a + (rowScatterDims R C n wf).window (ix2 i c') a
          < ((⟨2, ![R, C]⟩ : Shape).size a : Int)
  · -- the window is inside the operand: the landing index is (row number + 0, 0 + c')
    rw [dif_pos h, Option.some.injEq]
    have h0 := h 0
    have h1 := h 1
    rw [hs0, hw0] at h0
    rw [hs1, hw1] at h1
    constructor
    · intro hEq
      have e0 : ((rowScatterDims R C n wf).start (ix2 i c') idx 0 + (rowScatterDims R C n wf).window (ix2 i c') 0).toNat = r.val :=
        congrArg Fin.val (congrFun hEq 0)
      have e1 : ((rowScatterDims R C n wf).start (ix2 i c') idx 1 + (rowScatterDims R C n wf).window (ix2 i c') 1).toNat = c.val :=
        congrArg Fin.val (congrFun hEq 1)
      rw [hs0, hw0] at e0
      rw [hs1, hw1] at e1
      exact ⟨by omega, Fin.ext (by omega)⟩
    · rintro ⟨hrow, hcol⟩
      funext a
      refine Fin.ext ?_
      match a with
      | ⟨0, _⟩ =>
        show ((rowScatterDims R C n wf).start (ix2 i c') idx 0 + (rowScatterDims R C n wf).window (ix2 i c') 0).toNat = r.val
        rw [hs0, hw0]; omega
      | ⟨1, _⟩ =>
        show ((rowScatterDims R C n wf).start (ix2 i c') idx 1 + (rowScatterDims R C n wf).window (ix2 i c') 1).toNat = c.val
        rw [hs1, hw1, hcol]; omega
  · -- the window leaves the operand: the update is dropped, and a row number equal to some `r < R` would be inside
    rw [dif_neg h]
    constructor
    · intro hEq; cases hEq
    · rintro ⟨hrow, hcol⟩
      exfalso; apply h
      intro a
      match a with
      | ⟨0, _⟩ =>
        show 0 ≤ (rowScatterDims R C n wf).start (ix2 i c') idx 0 + (rowScatterDims R C n wf).window (ix2 i c') 0
          ∧ (rowScatterDims R C n wf).start (ix2 i c') idx 0 + (rowScatterDims R C n wf).window (ix2 i c') 0 < (R : Int)
        rw [hs0, hw0]; omega
      | ⟨1, _⟩ =>
        show 0 ≤ (rowScatterDims R C n wf).start (ix2 i c') idx 1 + (rowScatterDims R C n wf).window (ix2 i c') 1
          ∧ (rowScatterDims R C n wf).start (ix2 i c') idx 1 + (rowScatterDims R C n wf).window (ix2 i c') 1 < (C : Int)
        rw [hs1, hw1]; omega

/-- Element `(r, c)` of a row scatter-add at the ideal instance: the operand's element plus the updates of the rows
    numbered `r`. -/
theorem scatterAdd_rows_apply {R C n w : Nat}
    (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (c : Fin C) :
    Ideal.hostScatterAdd (rowScatterDims R C n wf) x idx upd (ix2 r c)
      = x (ix2 r c) + ∑ i : Fin n, if (idx (ix2 i (0 : Fin 1))).toInt = (r.val : Int) then upd (ix2 i c) else 0 := by
  unfold Ideal.hostScatterAdd
  show _ + _ = _ + _
  congr 1
  rw [Finset.sum_filter, sum_idx2]
  refine Finset.sum_congr rfl fun i _ => ?_
  -- row by row: a row numbered `r` contributes its column-`c` element alone, any other row nothing
  by_cases hrow : (idx (ix2 i (0 : Fin 1))).toInt = (r.val : Int)
  · rw [if_pos hrow, Finset.sum_eq_single c]
    · rw [if_pos ((resultIdx_rows_iff wf idx i c r c).2 ⟨hrow, rfl⟩)]
    · intro c' _ hne
      rw [if_neg fun h => hne ((resultIdx_rows_iff wf idx i c' r c).1 h).2]
    · intro h; exact absurd (Finset.mem_univ c) h
  · rw [if_neg hrow]
    refine Finset.sum_eq_zero fun c' _ => ?_
    rw [if_neg fun h => hrow ((resultIdx_rows_iff wf idx i c' r c).1 h).1]

end Idealize.ShloMosaic.RowIndex

end
-- ==== Proof.LibAggregateColumn.lean ====
/-
  A general lemma. One column of a neighbourhood sum.

  Take an array `P : [N, C]`, a column of row numbers `src : [n, 1]` to gather by, a column of row numbers
  `dst : [n, 1]` to scatter by, a scaling array `sc : [n, C]`, a start array `z : [N, C]` and a bias `[N, C]`.
  The array  bias + scatter_add (z, dst, gather (P, src) · sc)  has at `(r, j)`
      z (r, j) + ∑ over the edges e numbered r by dst of P (row src picks for e, j) · sc (e, j) + bias (r, j):
  column `j` of the result reads column `j` of `z`, `P`, `sc` and `bias` and nothing else of them. So two such sums,
  over arrays of `C` and of `C'` columns with the same row numbers, agree at `(r, j)` and `(r, j')` as soon as those
  four arrays agree between column `j` and column `j'`. Exact values (extended reals); all sizes.
-/
import proofs.«166615_j85907935854601_1_alg».proof.Proof.LibRowIndex
import Idealize.ShloMosaic.PureOps.Ideal
import Idealize.ShloMosaic.Lib.ValueIdx

noncomputable section

namespace Idealize.ShloMosaic.AggregateColumn

open Idealize.ShloMosaic Idealize.ShloMosaic.ValueIdx Idealize.ShloMosaic.RowIndex

/-- The row of the operand a row gather reads for result row `e`: `e`'s number read signed and clamped into the rows. -/
def srcRow {N n : Nat} (hN : 0 < N) (src : IVec ⟨2, ![n, 1]⟩ 32) (e : Fin n) : Fin N :=
  ⟨min (src (ix2 e (0 : Fin 1))).toInt.toNat (N - 1), by omega⟩

/-- Element `(r, j)` of  bias + scatter_add (z, dst, gather (P, src) · sc). -/
theorem aggregate_apply {N C n : Nat} (hN : 0 < N)
    (wfG : GatherDims.WF ⟨2, ![N, C]⟩ ⟨2, ![n, 1]⟩ ⟨2, ![n, C]⟩ [1] [0] [] [0] [] 1 ![1, C])
    (wfS : ScatterDims.WF ⟨2, ![N, C]⟩ ⟨2, ![n, 1]⟩ ⟨2, ![n, C]⟩ [1] [0] [0] 1)
    (dG : GatherDims ⟨2, ![N, C]⟩ ⟨2, ![n, 1]⟩ ⟨2, ![n, C]⟩) (hdG : dG = rowGatherDims N C n wfG)
    (dS : ScatterDims ⟨2, ![N, C]⟩ ⟨2, ![n, 1]⟩ ⟨2, ![n, C]⟩) (hdS : dS = rowScatterDims N C n wfS)
    (z P : FVec Ideal ⟨2, ![N, C]⟩ .f32) (src dst : IVec ⟨2, ![n, 1]⟩ 32) (sc : FVec Ideal ⟨2, ![n, C]⟩ .f32)
    (bias : FVec Ideal ⟨2, ![N, C]⟩ .f32) (r : Fin N) (j : Fin C) :
    addf (Host.scatterAdd dS z dst (mulf (Host.gather dG P src) sc)) bias (ix2 r j)
      = (z (ix2 r j) + ∑ e : Fin n, if (dst (ix2 e (0 : Fin 1))).toInt = (r.val : Int)
            then P (ix2 (srcRow hN src e) j) * sc (ix2 e j) else 0) + bias (ix2 r j) := by
  subst hdG hdS
  rw [addf_apply]
  show Ideal.hostScatterAdd (rowScatterDims N C n wfS) z dst (mulf (Host.gather (rowGatherDims N C n wfG) P src) sc) (ix2 r j) + _ = _
  rw [scatterAdd_rows_apply]
  refine congrArg (· + bias (ix2 r j)) (congrArg (z (ix2 r j) + ·) (Finset.sum_congr rfl fun e _ => ?_))
  rw [mulf_apply, gather_rows_apply hN]
  rfl

/-- Two such sums with the same row numbers agree at `(r, j)` and `(r, j')` when the start arrays, the gathered arrays, the
    scalings and the biases agree between column `j` of the one and column `j'` of the other. -/
theorem aggregate_congr {N C C' n : Nat} (hN : 0 < N)
    (wfG : GatherDims.WF ⟨2, ![N, C]⟩ ⟨2, ![n, 1]⟩ ⟨2, ![n, C]⟩ [1] [0] [] [0] [] 1 ![1, C])
    (wfS : ScatterDims.WF ⟨2, ![N, C]⟩ ⟨2, ![n, 1]⟩ ⟨2, ![n, C]⟩ [1] [0] [0] 1)
    (dG : GatherDims ⟨2, ![N, C]⟩ ⟨2, ![n, 1]⟩ ⟨2, ![n, C]⟩) (hdG : dG = rowGatherDims N C n wfG)
    (dS : ScatterDims ⟨2, ![N, C]⟩ ⟨2, ![n, 1]⟩ ⟨2, ![n, C]⟩) (hdS : dS = rowScatterDims N C n wfS)
    (wfG' : GatherDims.WF ⟨2, ![N, C']⟩ ⟨2, ![n, 1]⟩ ⟨2, ![n, C']⟩ [1] [0] [] [0] [] 1 ![1, C'])
    (wfS' : ScatterDims.WF ⟨2, ![N, C']⟩ ⟨2, ![n, 1]⟩ ⟨2, ![n, C']⟩ [1] [0] [0] 1)
    (dG' : GatherDims ⟨2, ![N, C']⟩ ⟨2, ![n, 1]⟩ ⟨2, ![n, C']⟩) (hdG' : dG' = rowGatherDims N C' n wfG')
    (dS' : ScatterDims ⟨2, ![N, C']⟩ ⟨2, ![n, 1]⟩ ⟨2, ![n, C']⟩) (hdS' : dS' = rowScatterDims N C' n wfS')
    (z P : FVec Ideal ⟨2, ![N, C]⟩ .f32) (sc : FVec Ideal ⟨2, ![n, C]⟩ .f32) (bias : FVec Ideal ⟨2, ![N, C]⟩ .f32)
    (z' P' : FVec Ideal ⟨2, ![N, C']⟩ .f32) (sc' : FVec Ideal ⟨2, ![n, C']⟩ .f32) (bias' : FVec Ideal ⟨2, ![N, C']⟩ .f32)
    (src dst : IVec ⟨2, ![n, 1]⟩ 32) (r : Fin N) (j : Fin C) (j' : Fin C')
    (hz : z (ix2 r j) = z' (ix2 r j')) (hP : ∀ s : Fin N, P (ix2 s j) = P' (ix2 s j'))
    (hsc : ∀ e : Fin n, sc (ix2 e j) = sc' (ix2 e j')) (hb : bias (ix2 r j) = bias' (ix2 r j')) :
    addf (Host.scatterAdd dS z dst (mulf (Host.gather dG P src) sc)) bias (ix2 r j)
      = addf (Host.scatterAdd dS' z' dst (mulf (Host.gather dG' P' src) sc')) bias' (ix2 r j') := by
  rw [aggregate_apply hN wfG wfS dG hdG dS hdS, aggregate_apply hN wfG' wfS' dG' hdG' dS' hdS', hz, hb]
  refine congrArg (· + bias' (ix2 r j')) (congrArg (z' (ix2 r j') + ·) (Finset.sum_congr rfl fun e _ => ?_))
  rw [hP, hsc]

end Idealize.ShloMosaic.AggregateColumn

end
-- ==== Proof.LibSlicedAggregate.lean ====
/-
  A general lemma. A band of columns of a neighbourhood sum is the neighbourhood sum of the band.

  Take  S = scatter_add (z, dst, gather (P, src) · sc)  over arrays of `C` columns, cut from it the `C'` columns that start at
  column `off`, and add a bias of `C'` columns. Because column `off + j` of `S` reads column `off + j` of `z`, `P` and `sc` and
  nothing else of them, the result is the same neighbourhood sum taken over arrays `z'`, `P'`, `sc'` of `C'` columns that agree
  with `z`, `P`, `sc` on the band, with the same row numbers and the same bias. Exact values (extended reals); all sizes.
-/
import proofs.«166615_j85907935854601_1_alg».proof.Proof.LibAggregateColumn
import Idealize.ShloMosaic.Lib.Pipeline.Value

noncomputable section

namespace Idealize.ShloMosaic.SlicedAggregate

open Idealize.ShloMosaic Idealize.ShloMosaic.ValueIdx Idealize.ShloMosaic.RowIndex Idealize.ShloMosaic.AggregateColumn

/-- The band of `C'` columns from column `off` of  scatter_add (z, dst, gather (P, src) · sc), plus a bias, is
    bias + scatter_add (z', dst, gather (P', src) · sc')  when the primed arrays are the band of the unprimed ones. -/
theorem band_eq {N C C' n : Nat} (hN : 0 < N) (off : Nat)
    (wfG : GatherDims.WF ⟨2, ![N, C]⟩ ⟨2, ![n, 1]⟩ ⟨2, ![n, C]⟩ [1] [0] [] [0] [] 1 ![1, C])
    (wfS : ScatterDims.WF ⟨2, ![N, C]⟩ ⟨2, ![n, 1]⟩ ⟨2, ![n, C]⟩ [1] [0] [0] 1)
    (dG : GatherDims ⟨2, ![N, C]⟩ ⟨2, ![n, 1]⟩ ⟨2, ![n, C]⟩) (hdG : dG = rowGatherDims N C n wfG)
    (dS : ScatterDims ⟨2, ![N, C]⟩ ⟨2, ![n, 1]⟩ ⟨2, ![n, C]⟩) (hdS : dS = rowScatterDims N C n wfS)
    (wfG' : GatherDims.WF ⟨2, ![N, C']⟩ ⟨2, ![n, 1]⟩ ⟨2, ![n, C']⟩ [1] [0] [] [0] [] 1 ![1, C'])
    (wfS' : ScatterDims.WF ⟨2, ![N, C']⟩ ⟨2, ![n, 1]⟩ ⟨2, ![n, C']⟩ [1] [0] [0] 1)
    (dG' : GatherDims ⟨2, ![N, C']⟩ ⟨2, ![n, 1]⟩ ⟨2, ![n, C']⟩) (hdG' : dG' = rowGatherDims N C' n wfG')
    (dS' : ScatterDims ⟨2, ![N, C']⟩ ⟨2, ![n, 1]⟩ ⟨2, ![n, C']⟩) (hdS' : dS' = rowScatterDims N C' n wfS')
    (hsl : (⟨2, ![N, C]⟩ : Shape).Slices ![0, off] ⟨2, ![N, C']⟩) (hoff : off + C' ≤ C)
    (z P : FVec Ideal ⟨2, ![N, C]⟩ .f32) (sc : FVec Ideal ⟨2, ![n, C]⟩ .f32)
    (z' P' : FVec Ideal ⟨2, ![N, C']⟩ .f32) (sc' : FVec Ideal ⟨2, ![n, C']⟩ .f32) (bias : FVec Ideal ⟨2, ![N, C']⟩ .f32)
    (src dst : IVec ⟨2, ![n, 1]⟩ 32)
    (hz : ∀ (r : Fin N) (j : Fin C') (jt : Fin C), jt.val = off + j.val → z (ix2 r jt) = z' (ix2 r j))
    (hP : ∀ (s : Fin N) (j : Fin C') (jt : Fin C), jt.val = off + j.val → P (ix2 s jt) = P' (ix2 s j))
    (hsc : ∀ (e : Fin n) (j : Fin C') (jt : Fin C), jt.val = off + j.val → sc (ix2 e jt) = sc' (ix2 e j)) :
    addf (extractStridedSlice ⟨2, ![N, C']⟩ ![0, off] (Host.scatterAdd dS z dst (mulf (Host.gather dG P src) sc)) hsl) bias
      = addf (Host.scatterAdd dS' z' dst (mulf (Host.gather dG' P' src) sc')) bias := by
  funext i
  obtain ⟨r, j, rfl⟩ : ∃ (r : Fin N) (j : Fin C'), i = ix2 r j := ⟨i 0, i 1, eq_ix2 i⟩
  have hj : off + j.val < C := by have := j.isLt; omega
  -- the band's column j is column off + j of the whole sum
  rw [addf_apply, extractStridedSlice_apply ![0, off] _ hsl (ix2 r j) (ix2 r (⟨off + j.val, hj⟩ : Fin C))
    (fun a => by
      match a with
      | ⟨0, _⟩ => show r.val = 0 + r.val; omega
      | ⟨1, _⟩ => rfl)]
  exact aggregate_congr hN wfG wfS dG hdG dS hdS wfG' wfS' dG' hdG' dS' hdS' z P sc (fun _ => bias (ix2 r j)) z' P' sc' bias
    src dst r ⟨off + j.val, hj⟩ j (hz r j _ rfl) (fun s => hP s j _ rfl) (fun e => hsc e j _ rfl) rfl

end Idealize.ShloMosaic.SlicedAggregate

end
-- ==== Proof.LibConcatPair.lean ====
/-
  A general lemma. A concatenation of two pieces depends on the pieces' contents only through the pieces themselves:
  equal first pieces and equal second pieces give equal concatenations. The side condition of a concatenation speaks of
  the pieces' shapes alone, so it is one and the same proof on both sides. Stated as a congruence, it lets a simplifier
  rewrite inside a piece, which it cannot do unaided because the side condition's type mentions the list of pieces.
  It holds for all shapes, any axis and any element type.
-/
import Idealize.ShloMosaic.PureOps.ShapeOps

namespace Idealize.ShloMosaic.ConcatPair

open Idealize.ShloMosaic

/-- Two-piece concatenations with equal pieces are equal. -/
theorem concatenate_pair_congr {α : Type} (t : Shape) (ax : Fin t.rank) (s1 s2 : Shape)
    {a a' : s1.Idx → α} {b b' : s2.Idx → α} (h : Shape.Concatenates [s1, s2] t ax) (ha : a = a') (hb : b = b') :
    concatenate t ax [⟨s1, a⟩, ⟨s2, b⟩] h = concatenate t ax [⟨s1, a'⟩, ⟨s2, b'⟩] h := by
  subst ha; subst hb; rfl

end Idealize.ShloMosaic.ConcatPair
-- ==== Proof.ValueEq.lean ====
import proofs.«166615_j85907935854601_1_alg».proof.Proof.IdealRegion
import proofs.«166615_j85907935854601_1_alg».proof.Proof.IdealFinal
import proofs.«166615_j85907935854601_1_alg».proof.Proof.Gen.ReferenceIdeal.Run
import proofs.«166615_j85907935854601_1_alg».proof.Proof.LibSlicedAggregate
import proofs.«166615_j85907935854601_1_alg».proof.Proof.LibConcatPair
import proofs.«166615_j85907935854601_1_alg».proof.Proof.LibDotPlain
import Idealize.ShloMosaic.Lib.StableHlo.Run
import Idealize.ShloMosaic.Lib.Pipeline.Value

/-!
  The two programs compute one function.

  The idealized kernel forms  H = x · [W_mu | W_logstd]  (twenty columns) in its region, and its host lines then form, for each
  node r and column q,   out (r, q) = Σ over the edges e into r of H (source of e, q) · norm e,   and return the first ten columns
  plus b_mu and the last ten plus b_logstd. The reference forms x · W_mu and x · W_logstd apart (ten columns each) and takes the
  same neighbourhood sums of each. The edge lists, the self loops, the wrapped row numbers and norm = d^(-1/2)[source] ·
  d^(-1/2)[target] are the same operations of the same edge array on both sides, so they are carried along unopened. Column q of
  a neighbourhood sum reads column q of its operands only, and column q of x · [W_mu | W_logstd] is column q of x · W_mu for
  q < 10 and column q - 10 of x · W_logstd otherwise: a finite sum of products over the 256 input channels either way. Only
  commutativity-free rearrangement is used: no law of the extended reals that needs finiteness.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ) (ρ : Dev nD → PrngReg)

attribute [local congr] ConcatPair.concatenate_pair_congr

/-! ## Broadcasts read at an index -/

/-- A scalar broadcast to any shape holds the scalar everywhere. -/
theorem scalar_bcast_apply {α : Type} (t : Shape) (h : (⟨0, ![]⟩ : Shape).BroadcastsInDim t ![]) (x : (⟨0, ![]⟩ : Shape).Idx → α)
    (j : t.Idx) : broadcastInDim t ![] h x j = x ix0 :=
  broadcastInDim_apply _ h x j ix0 (fun a => a.elim0)

/-- A column [n, 1] repeated across C columns holds at (e, q) the column's entry e. -/
theorem column_bcast_apply {α : Type} {n C : Nat} (hn : n ≠ 1)
    (h : (⟨2, ![n, 1]⟩ : Shape).BroadcastsInDim ⟨2, ![n, C]⟩ ![0, 1]) (y : (⟨2, ![n, 1]⟩ : Shape).Idx → α) (e : Fin n) (q : Fin C) :
    broadcastInDim ⟨2, ![n, C]⟩ ![0, 1] h y (ix2 e q) = y (ix2 e (0 : Fin 1)) :=
  broadcastInDim_apply _ h y (ix2 e q) (ix2 e (0 : Fin 1)) (fun a => by
    match a with
    | ⟨0, _⟩ => exact (if_neg hn).symm
    | ⟨1, _⟩ => exact (if_pos rfl).symm)

/-! ## The weight array and the product's columns -/

/-- The weight array the region finds is the two weight arguments side by side. -/
theorem V_main_v0 (c : Dev nD) : (V m c main_v0 : S256x20.Idx → EReal)
    = concatenate S256x20 1 [⟨S256x10, m ((c.tc : Thread nD τ).loc main_arg2)⟩, ⟨S256x10, m ((c.tc : Thread nD τ).loc main_arg4)⟩]
        Facts₀.concatenates_S256x10_S256x10_S256x20_d1 := by
  show StableHlo.after hostOps0 (fun b => m (c, b)) (Proc.devRef .tc main_v0) = _
  after_results

/-- Column q < 10 of x · [W₁ | W₂] is column q of x · W₁: the same sum over the 256 input channels, the weight read in the first piece. -/
theorem prod_col_first_aux (x : FVec Ideal S100000x256 .f32) (w1 w2 : FVec Ideal S256x10 .f32)
    (h : Shape.Concatenates [S256x10, S256x10] S256x20 1) (s : Fin 100000) (j : Fin 10) (jt : Fin 20) (hjt : jt.val = 0 + j.val) :
    prodArr x (concatenate S256x20 1 [⟨S256x10, w1⟩, ⟨S256x10, w2⟩] h) (ix2 s jt)
      = Host.dotGeneral (φ₁ := .f32) (φ₂ := .f32) Cert.ReferenceIdeal.dot_S100000x256_S256x10_S100000x10_1_0_0_1_n_n none x w1 (ix2 s j) := by
  rw [prodArr_apply]
  refine Eq.trans ?_ (DotPlain.dotGeneral_apply (M := 100000) (K := 256) (N := 10) (φ₁ := .f32) (φ₂ := .f32) none x w1 s j).symm
  refine Finset.sum_congr rfl fun k _ => ?_
  rw [concatenate_pair_apply_left (1 : Fin 2) w1 w2 h (ix2 k jt) rfl (ix2 k j) (fun b => by
    match b with
    | ⟨0, _⟩ => rfl
    | ⟨1, _⟩ => show j.val = jt.val; omega)]

/-- Column 10 + q of x · [W₁ | W₂] is column q of x · W₂: the weight read in the second piece, ten columns in. -/
theorem prod_col_last_aux (x : FVec Ideal S100000x256 .f32) (w1 w2 : FVec Ideal S256x10 .f32)
    (h : Shape.Concatenates [S256x10, S256x10] S256x20 1) (s : Fin 100000) (j : Fin 10) (jt : Fin 20) (hjt : jt.val = 10 + j.val) :
    prodArr x (concatenate S256x20 1 [⟨S256x10, w1⟩, ⟨S256x10, w2⟩] h) (ix2 s jt)
      = Host.dotGeneral (φ₁ := .f32) (φ₂ := .f32) Cert.ReferenceIdeal.dot_S100000x256_S256x10_S100000x10_1_0_0_1_n_n none x w2 (ix2 s j) := by
  rw [prodArr_apply]
  refine Eq.trans ?_ (DotPlain.dotGeneral_apply (M := 100000) (K := 256) (N := 10) (φ₁ := .f32) (φ₂ := .f32) none x w2 s j).symm
  refine Finset.sum_congr rfl fun k _ => ?_
  rw [concatenate_pair_apply_right (1 : Fin 2) w1 w2 h (ix2 k jt) rfl rfl (ix2 k j)
    (fun b hb => by
      match b with
      | ⟨0, _⟩ => rfl
      | ⟨1, _⟩ => exact absurd rfl hb)
    (by show j.val + 10 = jt.val; omega)]

/-- Column q < 10 of x · [W_mu | W_logstd] is column q of x · W_mu. -/
theorem prod_col_first (c : Dev nD) (s : Fin 100000) (j : Fin 10) (jt : Fin 20) (hjt : jt.val = 0 + j.val) :
    prodArr (m ((c.tc : Thread nD τ).loc main_arg0)) (V m c main_v0) (ix2 s jt)
      = Host.dotGeneral (φ₁ := .f32) (φ₂ := .f32) Cert.ReferenceIdeal.dot_S100000x256_S256x10_S100000x10_1_0_0_1_n_n none (m ((c.tc : Thread nD τ).loc main_arg0))
          (m ((c.tc : Thread nD τ).loc main_arg2)) (ix2 s j) := by
  rw [V_main_v0]
  exact prod_col_first_aux _ _ _ _ s j jt hjt

/-- Column 10 + q of x · [W_mu | W_logstd] is column q of x · W_logstd. -/
theorem prod_col_last (c : Dev nD) (s : Fin 100000) (j : Fin 10) (jt : Fin 20) (hjt : jt.val = 10 + j.val) :
    prodArr (m ((c.tc : Thread nD τ).loc main_arg0)) (V m c main_v0) (ix2 s jt)
      = Host.dotGeneral (φ₁ := .f32) (φ₂ := .f32) Cert.ReferenceIdeal.dot_S100000x256_S256x10_S100000x10_1_0_0_1_n_n none (m ((c.tc : Thread nD τ).loc main_arg0))
          (m ((c.tc : Thread nD τ).loc main_arg4)) (ix2 s j) := by
  rw [V_main_v0]
  exact prod_col_last_aux _ _ _ _ s j jt hjt

/-! ## What the host lines after the region start from -/

/-- The result array as the later lines find it: the product, every row. -/
theorem tail_result (c : Dev nD) :
    Pipeline.withArrays (cfgs 0).spec c (V0 m c) (fun w => (dats m 0 c).arrAt w (cfgs 0).N) (Proc.devRef .tc main_v1)
      = prodArr (m ((c.tc : Thread nD τ).loc main_arg0)) (V m c main_v0) := by
  refine (Pipeline.withArrays_arr spec0 launch0.win.arr_inj c _ _ 2).trans ?_
  rw [final2, V_main_arg0]

/-- The edge array as the later lines find it: as launched. -/
theorem tail_arg1 (c : Dev nD) :
    Pipeline.withArrays (cfgs 0).spec c (V0 m c) (fun w => (dats m 0 c).arrAt w (cfgs 0).N) (Proc.devRef .tc main_arg1)
      = m ((c.tc : Thread nD τ).loc main_arg1) :=
  (Pipeline.withArrays_of_ne _ c (V0 m c) _ main_arg1 (by exact (by decide : ∀ w, Pipeline.arrRef spec0 w ≠ main_arg1))).trans (V_main_arg1 m c)

/-! ## The two results -/

set_option maxHeartbeats 40000000 in
/-- The reference's mu is what the idealized kernel's host lines leave in its mu buffer, from memories that agree on the
    arguments: both are  bias + Σ over the edges into a node of (x · W)[source row] · norm,  the kernel's over the first ten of the
    twenty columns of x · [W_mu | W_logstd]. -/
theorem mu_eq (c : Dev nD) (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (hw : m' ((c.tc : Thread Cert.ReferenceIdeal.nD Cert.ReferenceIdeal.τ).loc Cert.ReferenceIdeal.main_arg2) = m ((c.tc : Thread nD τ).loc main_arg2))
    (hb : m' ((c.tc : Thread Cert.ReferenceIdeal.nD Cert.ReferenceIdeal.τ).loc Cert.ReferenceIdeal.main_arg3) = m ((c.tc : Thread nD τ).loc main_arg3)) :
    Cert.ReferenceIdeal.Value.res_main_v45 (F := Ideal) m' c = Pipeline.afterTail₀ cfgs (dats m) 0 (V0 m) [hostOps1] c main_v47 := by
  have hW1 := tail_result m c
  have hWa1 := tail_arg1 m c
  have hWb : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans (V_main_arg3 m c)
  unfold Pipeline.afterTail₀
  simp only [List.flatten_cons, List.flatten_nil, List.append_nil]
  symm
  show StableHlo.after hostOps1 _ (Proc.devRef .tc main_v47) = _
  after_results_simp
  simp only [hW1, hWa1, hWb]
  unfold Cert.ReferenceIdeal.Value.res_main_v45
  rw [h0, h1, hw, hb]
  refine SlicedAggregate.band_eq (N := 100000) (C := 20) (C' := 10) (n := 3300000) (by decide) 0
    Facts₀.gather_S100000x20_S3300000x1_S3300000x20_1_0_n_n_0_1_120_wf Facts₀.scatter_S100000x20_S3300000x1_S3300000x20_1_0_0_1_wf
    _ rfl _ rfl
    Cert.ReferenceIdeal.Facts₀.gather_S100000x10_S3300000x1_S3300000x10_1_0_n_n_0_1_110_wf Cert.ReferenceIdeal.Facts₀.scatter_S100000x10_S3300000x1_S3300000x10_1_0_0_1_wf
    _ rfl _ rfl _ (by decide) _ _ _ _ _ _ _ _ _ ?_ ?_ ?_
  · intro r j jt _
    exact (scalar_bcast_apply _ _ _ _).trans (scalar_bcast_apply _ _ _ _).symm
  · intro s j jt hjt
    exact prod_col_first m c s j jt hjt
  · intro e j jt _
    exact (column_bcast_apply (by decide) _ _ e jt).trans (column_bcast_apply (by decide) _ _ e j).symm

set_option maxHeartbeats 40000000 in
/-- The reference's logstd is what the idealized kernel's host lines leave in its logstd buffer, from memories that agree on the
    arguments: both are  bias + Σ over the edges into a node of (x · W)[source row] · norm,  the kernel's over the last ten of the
    twenty columns of x · [W_mu | W_logstd]. -/
theorem logstd_eq (c : Dev nD) (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (hw : m' ((c.tc : Thread Cert.ReferenceIdeal.nD Cert.ReferenceIdeal.τ).loc Cert.ReferenceIdeal.main_arg4) = m ((c.tc : Thread nD τ).loc main_arg4))
    (hb : m' ((c.tc : Thread Cert.ReferenceIdeal.nD Cert.ReferenceIdeal.τ).loc Cert.ReferenceIdeal.main_arg5) = m ((c.tc : Thread nD τ).loc main_arg5)) :
    Cert.ReferenceIdeal.Value.res_main_v62 (F := Ideal) m' c = Pipeline.afterTail₀ cfgs (dats m) 0 (V0 m) [hostOps1] c main_v51 := by
  have hW1 := tail_result m c
  have hWa1 := tail_arg1 m c
  have hWb : Pipeline.withArrays (cfgs 0).spec c (V0 m c) (fun w => (dats m 0 c).arrAt w (cfgs 0).N) (Proc.devRef .tc main_arg5)
      = m ((c.tc : Thread nD τ).loc main_arg5) :=
    (Pipeline.withArrays_of_ne _ c (V0 m c) _ main_arg5 (by exact (by decide : ∀ w, Pipeline.arrRef spec0 w ≠ main_arg5))).trans (V_main_arg5 m c)
  unfold Pipeline.afterTail₀
  simp only [List.flatten_cons, List.flatten_nil, List.append_nil]
  symm
  show StableHlo.after hostOps1 _ (Proc.devRef .tc main_v51) = _
  after_results_simp
  simp only [hW1, hWa1, hWb]
  unfold Cert.ReferenceIdeal.Value.res_main_v62
  rw [h0, h1, hw, hb]
  refine SlicedAggregate.band_eq (N := 100000) (C := 20) (C' := 10) (n := 3300000) (by decide) 10
    Facts₀.gather_S100000x20_S3300000x1_S3300000x20_1_0_n_n_0_1_120_wf Facts₀.scatter_S100000x20_S3300000x1_S3300000x20_1_0_0_1_wf
    _ rfl _ rfl
    Cert.ReferenceIdeal.Facts₀.gather_S100000x10_S3300000x1_S3300000x10_1_0_n_n_0_1_110_wf Cert.ReferenceIdeal.Facts₀.scatter_S100000x10_S3300000x1_S3300000x10_1_0_0_1_wf
    _ rfl _ rfl _ (by decide) _ _ _ _ _ _ _ _ _ ?_ ?_ ?_
  · intro r j jt _
    exact (scalar_bcast_apply _ _ _ _).trans (scalar_bcast_apply _ _ _ _).symm
  · intro s j jt hjt
    exact prod_col_last m c s j jt hjt
  · intro e j jt _
    exact (column_bcast_apply (by decide) _ _ e jt).trans (column_bcast_apply (by decide) _ _ e j).symm

end Cert.KernelIdeal.Hand

end
-- ==== Proof.lean ====
/-
  The certificate's claims, assembled.

  The kernel: H = x · [W_mu | W_logstd] in one pipelined region over 25 blocks of 4096 rows (the last block overhangs the 100000
  rows), then, on the host, the graph-convolution propagation out = Σ over edges of H[source] · norm, scattered to the target
  nodes, whose first ten columns plus b_mu and last ten plus b_logstd are the results. The reference: the same propagation of
  x · W_mu and of x · W_logstd apart. At exact values the two agree column by column (Proof/ValueEq.lean); the region's result
  array is the product on every row (Proof/IdealRegion.lean, Proof/IdealFinal.lean); the word-level program's frame names nothing of the
  staging buffers (Proof/KernelFrame.lean). The idealization rewrote no operation, so nothing is to be preserved.
-/
import proofs.«166615_j85907935854601_1_alg».proof.Defs
import proofs.«166615_j85907935854601_1_alg».proof.Proof.KernelFrame
import proofs.«166615_j85907935854601_1_alg».proof.Proof.IdealRegion
import proofs.«166615_j85907935854601_1_alg».proof.Proof.IdealFinal
import proofs.«166615_j85907935854601_1_alg».proof.Proof.ValueEq
import proofs.«166615_j85907935854601_1_alg».proof.Proof.Gen.ReferenceIdeal
import proofs.«166615_j85907935854601_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level program runs and leaves its arguments alone: no staging contents are named, so the rows past the array's end
    that the last block carries do not matter. -/
theorem frame_kernel : Cert.frame_Kernel := fun m ρ _ => Cert.Kernel.Hand.frame (F := Bits) m ρ

/-- The idealized kernel runs and leaves its arguments alone: its run with exact proof data, read at the argument arrays. -/
theorem frame_kernelIdeal : Cert.frame_KernelIdeal := fun m ρ _ =>
  Cert.KernelIdeal.Gen.frame_of m ρ (Cert.KernelIdeal.Hand.dats m) (Cert.KernelIdeal.Hand.A_eq m) (Cert.KernelIdeal.Hand.run_region m ρ)

/-- The reference is host operations only: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the six arguments both idealized programs end with the same two arrays: what the kernel's
    host lines leave in its two result buffers, which the reference's two composed terms equal (`mu_eq`, `logstd_eq`). -/
theorem algebraic : Cert.algebraic_KernelIdeal_ReferenceIdeal := by
  intro m ρ m' ρ' _ hagree
  refine ⟨fun c => Pipeline.afterTail₀ Cert.KernelIdeal.cfgs (Cert.KernelIdeal.Hand.dats m) 0 (Cert.KernelIdeal.Gen.V0 m) [Cert.KernelIdeal.Gen.hostOps1] c Cert.KernelIdeal.main_v47,
    fun c => Pipeline.afterTail₀ Cert.KernelIdeal.cfgs (Cert.KernelIdeal.Hand.dats m) 0 (Cert.KernelIdeal.Gen.V0 m) [Cert.KernelIdeal.Gen.hostOps1] c Cert.KernelIdeal.main_v51, ?_, ?_⟩
  · -- the kernel: its two results bypass the region and end at the later lines' values; its arguments end as launched
    refine (θ_run Cert.KernelIdeal.defs _ _).mono (fun r h c => ?_) (Cert.KernelIdeal.Hand.run_region m ρ)
    exact ⟨(h c).2 Cert.KernelIdeal.main_v47 (Pipeline.mem_restRefs_of Cert.KernelIdeal.main_v47 (by decide) (by decide)),
      (h c).2 Cert.KernelIdeal.main_v51 (Pipeline.mem_restRefs_of Cert.KernelIdeal.main_v51 (by decide) (by decide)),
      ((h c).1 0).trans (((Cert.KernelIdeal.Hand.dats m 0 c).arrAt_in 0 rfl _).trans ((Cert.KernelIdeal.Hand.A_eq m c 0).trans (Cert.KernelIdeal.Gen.V_main_arg0 m c))),
      ((h c).2 Cert.KernelIdeal.main_arg1 (Pipeline.mem_restRefs_of Cert.KernelIdeal.main_arg1 (by decide) (by decide))).trans (Cert.KernelIdeal.Gen.W_main_arg1 m (Cert.KernelIdeal.Hand.dats m) c),
      ((h c).2 Cert.KernelIdeal.main_arg2 (Pipeline.mem_restRefs_of Cert.KernelIdeal.main_arg2 (by decide) (by decide))).trans (Cert.KernelIdeal.Gen.W_main_arg2 m (Cert.KernelIdeal.Hand.dats m) c),
      ((h c).2 Cert.KernelIdeal.main_arg3 (Pipeline.mem_restRefs_of Cert.KernelIdeal.main_arg3 (by decide) (by decide))).trans (Cert.KernelIdeal.Gen.W_main_arg3 m (Cert.KernelIdeal.Hand.dats m) c),
      ((h c).2 Cert.KernelIdeal.main_arg4 (Pipeline.mem_restRefs_of Cert.KernelIdeal.main_arg4 (by decide) (by decide))).trans (Cert.KernelIdeal.Gen.W_main_arg4 m (Cert.KernelIdeal.Hand.dats m) c),
      ((h c).2 Cert.KernelIdeal.main_arg5 (Pipeline.mem_restRefs_of Cert.KernelIdeal.main_arg5 (by decide) (by decide))).trans (Cert.KernelIdeal.Gen.W_main_arg5 m (Cert.KernelIdeal.Hand.dats m) c)⟩
  · -- the reference: its generated run, its two composed terms rewritten to the kernel's values
    refine (θ_run Cert.ReferenceIdeal.defs _ _).mono (fun r h c => ?_) (Cert.ReferenceIdeal.Value.run (F := Ideal) m' ρ')
    exact ⟨(h c).1.trans (Cert.KernelIdeal.Hand.mu_eq m c m' (hagree c).1 (hagree c).2.1 (hagree c).2.2.1 (hagree c).2.2.2.1),
      (h c).2.1.trans (Cert.KernelIdeal.Hand.logstd_eq m c m' (hagree c).1 (hagree c).2.1 (hagree c).2.2.2.2.1 (hagree c).2.2.2.2.2),
      (h c).2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
